-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x510 : Shape := ⟨2, ![50000, 510]⟩
abbrev S100000x1 : Shape := ⟨2, ![100000, 1]⟩
abbrev S100000x2 : Shape := ⟨2, ![100000, 2]⟩
abbrev S50000x2 : Shape := ⟨2, ![50000, 2]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S512x512 : Shape := ⟨2, ![512, 512]⟩
abbrev S_ : Shape := ⟨0, ![]⟩

class Facts : Prop where
  bcast_S_S50000x510 : S_.BroadcastsInDim S50000x510 (![] : Fin 0 → Fin S50000x510.rank)
  reducesTo_S50000x510_S_d0_1 : S50000x510.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S50000x2 : S_.BroadcastsInDim S50000x2 (![] : Fin 0 → Fin S50000x2.rank)
  reducesTo_S50000x2_S_d0_1 : S50000x2.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg8 : FVec F S512x512 .f32) (main_arg9 : FVec F S512 .f32) (main_arg10 : FVec F S512x512 .f32) (main_arg11 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg5 : FVec F S512 .f32) (main_arg6 : FVec F S1024x512 .f32) (main_arg7 : FVec F S1024 .f32) (main_arg8 : FVec F S512x512 .f32) (main_arg9 : FVec F S512 .f32) (main_arg10 : FVec F S512x512 .f32) (main_arg11 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x510 .f32) (main_arg1 : FVec F S100000x1 .f32) (main_arg2 : IVec S100000x2 32) (main_arg3 : FVec F S50000x2 .f32) (main_arg4 : FVec F S512x1024 .f32) (main_arg5 : FVec F S512 .f32) (main_arg6 : FVec F S1024x512 .f32) (main_arg7 : FVec F S1024 .f32) (main_arg8 : FVec F S512x512 .f32) (main_arg9 : FVec F S512 .f32) (main_arg10 : FVec F S512x512 .f32) (main_arg11 : FVec F S512 .f32) : IVec S_ 1 :=
  let main_v0 : FVec F S50000x510 .f32 := Host.absf main_arg0
  let main_cst : FVec F S_ .f32 := constant S_ .f32 0x7F800000#32
  let main_v1 : FVec F S50000x510 .f32 := broadcastInDim S50000x510 ![] bcast_S_S50000x510 main_cst
  let main_v2 : IVec S50000x510 1 := cmpf .olt main_v0 main_v1
  let main_c : IVec S_ 1 := constantI S_ 1 1#1
  let main_v3 : IVec S_ 1 := (fun x v => Host.reduce IntOp.andi x v reducesTo_S50000x510_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S50000x2 .f32 := Host.absf main_arg3
  let main_cst_2 : FVec F S_ .f32 := constant S_ .f32 0x7F800000#32
  let main_v10 : FVec F S50000x2 .f32 := broadcastInDim S50000x2 ![] bcast_S_S50000x2 main_cst_2
  let main_v11 : IVec S50000x2 1 := cmpf .olt main_v9 main_v10
  let main_c_3 : IVec S_ 1 := constantI S_ 1 1#1
  let main_v12 : IVec S_ 1 := (fun x v => Host.reduce IntOp.andi x v reducesTo_S50000x2_S_d0_1 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_arg8 main_arg9 main_arg10 main_arg11 main_v13 main_v16
-- ==== Kernel.lean ====
abbrev S50000x510 : Shape := ⟨2, ![50000, 510]⟩
abbrev S100000x1 : Shape := ⟨2, ![100000, 1]⟩
abbrev S100000x2 : Shape := ⟨2, ![100000, 2]⟩
abbrev S50000x2 : Shape := ⟨2, ![50000, 2]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S512x512 : Shape := ⟨2, ![512, 512]⟩
abbrev S50000x512 : Shape := ⟨2, ![50000, 512]⟩
abbrev S100000 : Shape := ⟨1, ![100000]⟩
abbrev S_ : Shape := ⟨0, ![]⟩
abbrev S100000x512 : Shape := ⟨2, ![100000, 512]⟩
abbrev S100000x1024 : Shape := ⟨2, ![100000, 1024]⟩
abbrev S1x512 : Shape := ⟨2, ![1, 512]⟩
abbrev S1x1024 : Shape := ⟨2, ![1, 1024]⟩
abbrev S2000x1024 : Shape := ⟨2, ![2000, 1024]⟩
abbrev S2000x512 : Shape := ⟨2, ![2000, 512]⟩
abbrev S50000 : Shape := ⟨1, ![50000]⟩
abbrev S50000x1 : Shape := ⟨2, ![50000, 1]⟩

abbrev nBuf : Space → Nat
  | .hbm => 105
  | .vmem => 16
  | .smem => 0
  | _ => 0

abbrev bufTy : (tb : Table) → Fin (tcTables nBuf tb) → BufTy
  | .hbm, ⟨0, _⟩ => ⟨S50000x510, .f32⟩
  | .hbm, ⟨1, _⟩ => ⟨S100000x1, .f32⟩
  | .hbm, ⟨2, _⟩ => ⟨S100000x2, .i32⟩
  | .hbm, ⟨3, _⟩ => ⟨S50000x2, .f32⟩
  | .hbm, ⟨4, _⟩ => ⟨S512x1024, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S50000x512, .f32⟩
  | .hbm, ⟨13, _⟩ => ⟨S100000x1, .i32⟩
  | .hbm, ⟨14, _⟩ => ⟨S100000, .i32⟩
  | .hbm, ⟨15, _⟩ => ⟨S100000x1, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x512, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x512, .f32⟩
  | .hbm, ⟨35, _⟩ => ⟨S100000x1024, .f32⟩
  | .hbm, ⟨36, _⟩ => ⟨S100000x1024, .f32⟩
  | .hbm, ⟨37, _⟩ => ⟨S100000x1024, .f32⟩
  | .hbm, ⟨38, _⟩ => ⟨S100000x1024, .bf16⟩
  | .hbm, ⟨39, _⟩ => ⟨S1024x512, .f32⟩
  | .hbm, ⟨40, _⟩ => ⟨S1024x512, .bf16⟩
  | .hbm, ⟨41, _⟩ => ⟨S1x512, .f32⟩
  | .hbm, ⟨42, _⟩ => ⟨S512x1024, .f32⟩
  | .hbm, ⟨43, _⟩ => ⟨S512x1024, .bf16⟩
  | .hbm, ⟨44, _⟩ => ⟨S1x1024, .f32⟩
  | .hbm, ⟨45, _⟩ => ⟨S100000x1024, .f32⟩
  | .hbm, ⟨46, _⟩ => ⟨S100000x512, .f32⟩
  | .hbm, ⟨47, _⟩ => ⟨S100000x512, .f32⟩
  | .hbm, ⟨48, _⟩ => ⟨S_, .f32⟩
  | .hbm, ⟨49, _⟩ => ⟨S50000x512, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S50000x512, .f32⟩
  | .hbm, ⟨59, _⟩ => ⟨S_, .i32⟩
  | .hbm, ⟨60, _⟩ => ⟨S100000, .i32⟩
  | .hbm, ⟨61, _⟩ => ⟨S100000, .i1⟩
  | .hbm, ⟨62, _⟩ => ⟨S_, .i32⟩
  | .hbm, ⟨63, _⟩ => ⟨S100000, .i32⟩
  | .hbm, ⟨64, _⟩ => ⟨S100000, .i32⟩
  | .hbm, ⟨65, _⟩ => ⟨S100000, .i32⟩
  | .hbm, ⟨66, _⟩ => ⟨S100000x1, .i32⟩
  | .hbm, ⟨67, _⟩ => ⟨S50000x512, .f32⟩
  | .hbm, ⟨68, _⟩ => ⟨S_, .f32⟩
  | .hbm, ⟨69, _⟩ => ⟨S100000, .f32⟩
  | .hbm, ⟨70, _⟩ => ⟨S_, .f32⟩
  | .hbm, ⟨71, _⟩ => ⟨S50000, .f32⟩
  | .hbm, ⟨72, _⟩ => ⟨S_, .i32⟩
  | .hbm, ⟨73, _⟩ => ⟨S100000, .i32⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S50000, .f32⟩
  | .hbm, ⟨81, _⟩ => ⟨S_, .i32⟩
  | .hbm, ⟨82, _⟩ => ⟨S100000, .i32⟩
  | .hbm, ⟨83, _⟩ => ⟨S100000, .i1⟩
  | .hbm, ⟨84, _⟩ => ⟨S_, .i32⟩
  | .hbm, ⟨85, _⟩ => ⟨S100000, .i32⟩
  | .hbm, ⟨86, _⟩ => ⟨S100000, .i32⟩
  | .hbm, ⟨87, _⟩ => ⟨S100000, .i32⟩
  | .hbm, ⟨88, _⟩ => ⟨S100000x1, .i32⟩
  | .hbm, ⟨89, _⟩ => ⟨S50000, .f32⟩
  | .hbm, ⟨90, _⟩ => ⟨S_, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x512, .f32⟩
  | .hbm, ⟨96, _⟩ => ⟨S50000x512, .f32⟩
  | .hbm, ⟨97, _⟩ => ⟨S50000x512, .bf16⟩
  | .hbm, ⟨98, _⟩ => ⟨S512x512, .f32⟩
  | .hbm, ⟨99, _⟩ => ⟨S512x512, .bf16⟩
  | .hbm, ⟨100, _⟩ => ⟨S1x512, .f32⟩
  | .hbm, ⟨101, _⟩ => ⟨S512x512, .f32⟩
  | .hbm, ⟨102, _⟩ => ⟨S512x512, .bf16⟩
  | .hbm, ⟨103, _⟩ => ⟨S1x512, .f32⟩
  | .hbm, ⟨104, _⟩ => ⟨S50000x512, .f32⟩
  | .local _ .vmem, ⟨0, _⟩ => ⟨S2000x1024, .bf16⟩
  | .local _ .vmem, ⟨1, _⟩ => ⟨S2000x1024, .bf16⟩
  | .local _ .vmem, ⟨2, _⟩ => ⟨S1024x512, .bf16⟩
  | .local _ .vmem, ⟨3, _⟩ => ⟨S1x512, .f32⟩
  | .local _ .vmem, ⟨4, _⟩ => ⟨S512x1024, .bf16⟩
  | .local _ .vmem, ⟨5, _⟩ => ⟨S1x1024, .f32⟩
  | .local _ .vmem, ⟨6, _⟩ => ⟨S2000x1024, .f32⟩
  | .local _ .vmem, ⟨7, _⟩ => ⟨S2000x1024, .f32⟩
  | .local _ .vmem, ⟨8, _⟩ => ⟨S2000x512, .bf16⟩
  | .local _ .vmem, ⟨9, _⟩ => ⟨S2000x512, .bf16⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | _, _ => ⟨S50000x510, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_call0_v0 : Ref sig .tc := ⟨.hbm, 91, rfl⟩
abbrev main_call0_v1 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S50000x510_S50000x2_S50000x512_d1 : Shape.Concatenates [S50000x510, S50000x2] S50000x512 1
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x512_S100000x512_S100000x1024_d1 : Shape.Concatenates [S100000x512, S100000x512] S100000x1024 1
  bcast_S100000x1_S100000x1024_0_1 : S100000x1.BroadcastsInDim S100000x1024 (![0, 1] : Fin 2 → Fin S100000x1024.rank)
  bitsLt_bf16_f32 : FTy.bits .bf16 < FTy.bits .f32
  transposes_S512x1024_S1024x512_1_0 : S512x1024.Transposes [1, 0] S1024x512
  shapeCasts_S512_S1x512 : S512.ShapeCasts S1x512
  transposes_S1024x512_S512x1024_1_0 : S1024x512.Transposes [1, 0] S512x1024
  shapeCasts_S1024_S1x1024 : S1024.ShapeCasts S1x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  slices_S100000x1024_S100000x512_0_0 : S100000x1024.Slices ![0, 0] S100000x512
  slices_S100000x1024_S100000x512_0_512 : S100000x1024.Slices ![0, 512] S100000x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S512x512_S512x512_1_0 : S512x512.Transposes [1, 0] S512x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S50000x512_S100000x1_S100000x512_1_0_n_n_0_1_1512_wf : GatherDims.WF S50000x512 S100000x1 S100000x512 [1] [0] [] [0] [] 1 ![1, 512]
  dot_S2000x1024_S1024x512_S2000x512_1_0_0_1_n_n_wf : DotDims.WF S2000x1024 S1024x512 S2000x512 [1] [0] [0] [1] [] []
  dot_S2000x512_S512x1024_S2000x1024_1_0_0_1_n_n_wf : DotDims.WF S2000x512 S512x1024 S2000x1024 [1] [0] [0] [1] [] []
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .bf16 = 32 ∨ (Rect.block (s := S100000x1024) S2000x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1024.size a ≤ S100000x1024.size a
  hwx0_5 : ∀ i : grid0.Coords, EltTy.bits .f32 = 32 ∨ (Rect.block (s := S100000x1024) S2000x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .bf16 = 32 ∨ (Rect.block (s := S50000x512) S2000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)

variable [Facts₀]

def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf
def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v22) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v67) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v70) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v74) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x510 : Shape := ⟨2, ![50000, 510]⟩
abbrev S100000x1 : Shape := ⟨2, ![100000, 1]⟩
abbrev S100000x2 : Shape := ⟨2, ![100000, 2]⟩
abbrev S50000x2 : Shape := ⟨2, ![50000, 2]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S512x512 : Shape := ⟨2, ![512, 512]⟩
abbrev S50000x512 : Shape := ⟨2, ![50000, 512]⟩
abbrev S100000 : Shape := ⟨1, ![100000]⟩
abbrev S_ : Shape := ⟨0, ![]⟩
abbrev S100000x512 : Shape := ⟨2, ![100000, 512]⟩
abbrev S100000x1024 : Shape := ⟨2, ![100000, 1024]⟩
abbrev S1x512 : Shape := ⟨2, ![1, 512]⟩
abbrev S1x1024 : Shape := ⟨2, ![1, 1024]⟩
abbrev S50000 : Shape := ⟨1, ![50000]⟩
abbrev S50000x1 : Shape := ⟨2, ![50000, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x510, .f32⟩
  | .hbm, ⟨1, _⟩ => ⟨S100000x1, .f32⟩
  | .hbm, ⟨2, _⟩ => ⟨S100000x2, .i32⟩
  | .hbm, ⟨3, _⟩ => ⟨S50000x2, .f32⟩
  | .hbm, ⟨4, _⟩ => ⟨S512x1024, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S50000x512, .f32⟩
  | .hbm, ⟨13, _⟩ => ⟨S100000x1, .i32⟩
  | .hbm, ⟨14, _⟩ => ⟨S100000, .i32⟩
  | .hbm, ⟨15, _⟩ => ⟨S100000x1, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x512, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x512, .f32⟩
  | .hbm, ⟨35, _⟩ => ⟨S100000x1024, .f32⟩
  | .hbm, ⟨36, _⟩ => ⟨S100000x1024, .f32⟩
  | .hbm, ⟨37, _⟩ => ⟨S100000x1024, .f32⟩
  | .hbm, ⟨38, _⟩ => ⟨S1024x512, .f32⟩
  | .hbm, ⟨39, _⟩ => ⟨S100000x512, .f32⟩
  | .hbm, ⟨40, _⟩ => ⟨S1x512, .f32⟩
  | .hbm, ⟨41, _⟩ => ⟨S100000x512, .f32⟩
  | .hbm, ⟨42, _⟩ => ⟨S100000x512, .f32⟩
  | .hbm, ⟨43, _⟩ => ⟨S_, .f32⟩
  | .hbm, ⟨44, _⟩ => ⟨S100000x512, .f32⟩
  | .hbm, ⟨45, _⟩ => ⟨S100000x512, .f32⟩
  | .hbm, ⟨46, _⟩ => ⟨S512x1024, .f32⟩
  | .hbm, ⟨47, _⟩ => ⟨S100000x1024, .f32⟩
  | .hbm, ⟨48, _⟩ => ⟨S1x1024, .f32⟩
  | .hbm, ⟨49, _⟩ => ⟨S100000x1024, .f32⟩
  | .hbm, ⟨50, _⟩ => ⟨S100000x1024, .f32⟩
  | .hbm, ⟨51, _⟩ => ⟨S_, .f32⟩
  | .hbm, ⟨52, _⟩ => ⟨S100000x1024, .f32⟩
  | .hbm, ⟨53, _⟩ => ⟨S100000x1024, .f32⟩
  | .hbm, ⟨54, _⟩ => ⟨S100000x512, .f32⟩
  | .hbm, ⟨55, _⟩ => ⟨S100000x512, .f32⟩
  | .hbm, ⟨56, _⟩ => ⟨S_, .f32⟩
  | .hbm, ⟨57, _⟩ => ⟨S50000x512, .f32⟩
  | .hbm, ⟨58, _⟩ => ⟨S_, .i32⟩
  | .hbm, ⟨59, _⟩ => ⟨S100000, .i32⟩
  | .hbm, ⟨60, _⟩ => ⟨S100000, .i1⟩
  | .hbm, ⟨61, _⟩ => ⟨S_, .i32⟩
  | .hbm, ⟨62, _⟩ => ⟨S100000, .i32⟩
  | .hbm, ⟨63, _⟩ => ⟨S100000, .i32⟩
  | .hbm, ⟨64, _⟩ => ⟨S100000, .i32⟩
  | .hbm, ⟨65, _⟩ => ⟨S100000x1, .i32⟩
  | .hbm, ⟨66, _⟩ => ⟨S50000x512, .f32⟩
  | .hbm, ⟨67, _⟩ => ⟨S_, .i32⟩
  | .hbm, ⟨68, _⟩ => ⟨S100000, .i32⟩
  | .hbm, ⟨69, _⟩ => ⟨S100000, .i1⟩
  | .hbm, ⟨70, _⟩ => ⟨S_, .i32⟩
  | .hbm, ⟨71, _⟩ => ⟨S100000, .i32⟩
  | .hbm, ⟨72, _⟩ => ⟨S100000, .i32⟩
  | .hbm, ⟨73, _⟩ => ⟨S100000, .i32⟩
  | .hbm, ⟨74, _⟩ => ⟨S100000x1, .i32⟩
  | .hbm, ⟨75, _⟩ => ⟨S50000x512, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S50000, .f32⟩
  | .hbm, ⟨80, _⟩ => ⟨S_, .i32⟩
  | .hbm, ⟨81, _⟩ => ⟨S100000, .i32⟩
  | .hbm, ⟨82, _⟩ => ⟨S100000, .i1⟩
  | .hbm, ⟨83, _⟩ => ⟨S_, .i32⟩
  | .hbm, ⟨84, _⟩ => ⟨S100000, .i32⟩
  | .hbm, ⟨85, _⟩ => ⟨S100000, .i32⟩
  | .hbm, ⟨86, _⟩ => ⟨S100000, .i32⟩
  | .hbm, ⟨87, _⟩ => ⟨S100000x1, .i32⟩
  | .hbm, ⟨88, _⟩ => ⟨S50000, .f32⟩
  | .hbm, ⟨89, _⟩ => ⟨S_, .i32⟩
  | .hbm, ⟨90, _⟩ => ⟨S100000, .i32⟩
  | .hbm, ⟨91, _⟩ => ⟨S100000, .i1⟩
  | .hbm, ⟨92, _⟩ => ⟨S_, .i32⟩
  | .hbm, ⟨93, _⟩ => ⟨S100000, .i32⟩
  | .hbm, ⟨94, _⟩ => ⟨S100000, .i32⟩
  | .hbm, ⟨95, _⟩ => ⟨S100000, .i32⟩
  | .hbm, ⟨96, _⟩ => ⟨S100000x1, .i32⟩
  | .hbm, ⟨97, _⟩ => ⟨S50000, .f32⟩
  | .hbm, ⟨98, _⟩ => ⟨S_, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x512, .f32⟩
  | .hbm, ⟨104, _⟩ => ⟨S50000x512, .f32⟩
  | .hbm, ⟨105, _⟩ => ⟨S512x512, .f32⟩
  | .hbm, ⟨106, _⟩ => ⟨S50000x512, .f32⟩
  | .hbm, ⟨107, _⟩ => ⟨S1x512, .f32⟩
  | .hbm, ⟨108, _⟩ => ⟨S50000x512, .f32⟩
  | .hbm, ⟨109, _⟩ => ⟨S50000x512, .f32⟩
  | .hbm, ⟨110, _⟩ => ⟨S_, .f32⟩
  | .hbm, ⟨111, _⟩ => ⟨S50000x512, .f32⟩
  | .hbm, ⟨112, _⟩ => ⟨S50000x512, .f32⟩
  | .hbm, ⟨113, _⟩ => ⟨S512x512, .f32⟩
  | .hbm, ⟨114, _⟩ => ⟨S50000x512, .f32⟩
  | .hbm, ⟨115, _⟩ => ⟨S1x512, .f32⟩
  | .hbm, ⟨116, _⟩ => ⟨S50000x512, .f32⟩
  | .hbm, ⟨117, _⟩ => ⟨S50000x512, .f32⟩
  | .hbm, ⟨118, _⟩ => ⟨S_, .f32⟩
  | .hbm, ⟨119, _⟩ => ⟨S50000x512, .f32⟩
  | .hbm, ⟨120, _⟩ => ⟨S50000x512, .f32⟩
  | _, _ => ⟨S50000x510, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_c_3 : Ref sig .tc := ⟨.hbm, 58, rfl⟩
abbrev main_v37 : Ref sig .tc := ⟨.hbm, 59, rfl⟩
abbrev main_v38 : Ref sig .tc := ⟨.hbm, 60, rfl⟩
abbrev main_c_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_call2_v0 : Ref sig .tc := ⟨.hbm, 99, rfl⟩
abbrev main_call2_v1 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call3_cst : Ref sig .tc := ⟨.hbm, 110, rfl⟩
abbrev main_call3_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call4_cst : Ref sig .tc := ⟨.hbm, 118, rfl⟩
abbrev main_call4_v0 : Ref sig .tc := ⟨.hbm, 119, rfl⟩
abbrev main_v82 : Ref sig .tc := ⟨.hbm, 120, rfl⟩

abbrev nD : Nat := 1
abbrev τ : Topo := Topo.v7x

variable {F : FTy → Type} [FloatOps F]

class Facts₀ : Prop where
  concatenates_S50000x510_S50000x2_S50000x512_d1 : Shape.Concatenates [S50000x510, S50000x2] S50000x512 1
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x512_S100000x512_S100000x1024_d1 : Shape.Concatenates [S100000x512, S100000x512] S100000x1024 1
  bcast_S100000x1_S100000x1024_0_1 : S100000x1.BroadcastsInDim S100000x1024 (![0, 1] : Fin 2 → Fin S100000x1024.rank)
  transposes_S512x1024_S1024x512_1_0 : S512x1024.Transposes [1, 0] S1024x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  slices_S100000x1024_S100000x512_0_0 : S100000x1024.Slices ![0, 0] S100000x512
  slices_S100000x1024_S100000x512_0_512 : S100000x1024.Slices ![0, 512] S100000x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S512x512_S512x512_1_0 : S512x512.Transposes [1, 0] S512x512
  bcast_S1x512_S50000x512_0_1 : S1x512.BroadcastsInDim S50000x512 (![0, 1] : Fin 2 → Fin S50000x512.rank)
  gather_S50000x512_S100000x1_S100000x512_1_0_n_n_0_1_1512_wf : GatherDims.WF S50000x512 S100000x1 S100000x512 [1] [0] [] [0] [] 1 ![1, 512]
  dot_S100000x1024_S1024x512_S100000x512_1_0_0_1_n_n_wf : DotDims.WF S100000x1024 S1024x512 S100000x512 [1] [0] [0] [1] [] []
  dot_S100000x512_S512x1024_S100000x1024_1_0_0_1_n_n_wf : DotDims.WF S100000x512 S512x1024 S100000x1024 [1] [0] [0] [1] [] []
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1
  dot_S50000x512_S512x512_S50000x512_1_0_0_1_n_n_wf : DotDims.WF S50000x512 S512x512 S50000x512 [1] [0] [0] [1] [] []

variable [Facts₀]

def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf
def dot_S100000x512_S512x1024_S100000x1024_1_0_0_1_n_n : DotDims S100000x512 S512x1024 S100000x1024 where
  lhsContracting := [1]
  rhsContracting := [0]
  lhsNonContracting := [0]
  rhsNonContracting := [1]
  lhsBatch := []
  rhsBatch := []
  wf := dot_S100000x512_S512x1024_S100000x1024_1_0_0_1_n_n_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.LibDenseRelu.lean ====
/-
  A dense layer followed by the rectifier, read at one entry, at the ideal values (floats as extended reals).

  With `x` an M×K matrix, `w` a K×N matrix and `b` a row of N biases, the entry (r, s) of
  `relu (x · w + b)` is `max (Σ_k x[r,k] · w[k,s] + b[s], 0)`. Two spellings of that layer are read here at (r, s):
  the accelerator's — a matrix product accumulated into a zero splat, the bias kept as a one-row matrix and laid along
  every row, the rectifier a maximum with a splat zero scalar — and the host's — a `dot_general` with no accumulator,
  the bias a vector broadcast to one row and then to every row, the rectifier a maximum with a broadcast scalar constant.
  Both are the same extended real; no law beyond `0 + a = a` is used, so nothing here needs finiteness.
-/
import Idealize.ShloMosaic.Lib.StackMember
import Idealize.ShloMosaic.Lib.KernelVsHost
import Idealize.ShloMosaic.Lib.Pipeline.Value
import Idealize.ShloMosaic.Lib.ValueIdx
import Idealize.ShloMosaic.PureOps.Ideal.Laws

noncomputable section

namespace Cert.DenseRelu

open Idealize.ShloMosaic Idealize.ShloMosaic.ValueIdx

variable {M K N : Nat} {φ₁ φ₂ : FTy}

/-- The matrix product of an M×K by a K×N matrix accumulated into zero, read at (r, s): the sum over the contracted
    coordinate of the products of the entries. -/
theorem matmul_plain_zero_apply (prec : Option ContractPrecision) (x : FVec Ideal ⟨2, ![M, K]⟩ φ₁) (w : FVec Ideal ⟨2, ![K, N]⟩ φ₂)
    (r : Fin M) (s : Fin N) :
    matmul (DotDims.plain M K N) prec x w (constant ⟨2, ![M, N]⟩ .f32 0x00000000#32) (ix2 r s) = ∑ k : Fin K, x (ix2 r k) * w (ix2 k s) := by
  rw [matmul_zero_eq_dotGeneral]
  exact StackMember.dotGeneral_plain_apply prec x w r s

/-- A one-row matrix laid along every one of M rows (the accelerator's vector broadcast), read at (r, s), is the row's entry s. -/
theorem broadcastTo_oneRow_apply {α : Type} (y : (⟨2, ![1, N]⟩ : Shape).Idx → α) (hb : (⟨2, ![1, N]⟩ : Shape).Broadcasts ⟨2, ![M, N]⟩)
    (r : Fin M) (s : Fin N) : broadcastTo ⟨2, ![M, N]⟩ y hb (ix2 r s) = y (ix2 (0 : Fin 1) s) := by
  refine broadcastTo_apply y hb (ix2 r s) (ix2 (0 : Fin 1) s) ?_
  intro a
  match a with
  | ⟨0, _⟩ => rfl
  | ⟨1, _⟩ =>
    show s.val = if N = 1 then 0 else s.val
    split
    · have := s.isLt; omega
    · rfl

/-- A vector of N entries made a one-row matrix by a broadcast along axis 1, read at (0, s), is the vector's entry s. -/
theorem broadcastInDim_toRow_apply {α : Type} (b : (⟨1, ![N]⟩ : Shape).Idx → α) (h1 : (⟨1, ![N]⟩ : Shape).BroadcastsInDim ⟨2, ![1, N]⟩ ![1])
    (s : Fin N) : broadcastInDim ⟨2, ![1, N]⟩ ![1] h1 b (ix2 (0 : Fin 1) s) = b (ix1 s) := by
  refine broadcastInDim_apply ![1] h1 b (ix2 (0 : Fin 1) s) (ix1 s) ?_
  intro a
  match a with
  | ⟨0, _⟩ =>
    show s.val = if N = 1 then 0 else s.val
    split
    · have := s.isLt; omega
    · rfl

/-- The zero word of f32 splat by the accelerator reads 0 everywhere. -/
theorem broadcast_zero_apply {t : Shape} (i : t.Idx) : broadcast t (Scalar.ofBits (F := Ideal) .f32 0x00000000#32) i = (0 : EReal) := by
  show Ideal.ofBits .f32 0x00000000#32 = 0
  exact Ideal.ofBits_zero_f32

/-- The zero constant of f32 broadcast by the host reads 0 everywhere. -/
theorem broadcastInDim_zero_apply {t : Shape} (h0 : (⟨0, ![]⟩ : Shape).BroadcastsInDim t ![]) (i : t.Idx) :
    broadcastInDim t ![] h0 (constant (F := Ideal) ⟨0, ![]⟩ .f32 0x00000000#32) i = (0 : EReal) := by
  rw [broadcastInDim_constant]
  exact broadcast_zero_apply i

/-- THE ACCELERATOR'S LAYER at (r, s): product into zero, plus the one-row bias laid along the rows, rectified. -/
theorem kernel_layer_apply (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (r : Fin M) (s : Fin N) :
    maximumf (addf (matmul (DotDims.plain M K N) prec x w (constant ⟨2, ![M, N]⟩ .f32 0x00000000#32)) (broadcastTo ⟨2, ![M, N]⟩ b hb))
        (broadcast ⟨2, ![M, N]⟩ (Scalar.ofBits (F := Ideal) .f32 0x00000000#32)) (ix2 r s)
      = max ((∑ k : Fin K, x (ix2 r k) * w (ix2 k s)) + b (ix2 (0 : Fin 1) s)) 0 := by
  rw [maximumf_apply, addf_apply, matmul_plain_zero_apply, broadcastTo_oneRow_apply, broadcast_zero_apply]

/-- THE HOST'S LAYER at (r, s): `dot_general`, plus the bias vector broadcast to a row and then to every row, rectified. -/
theorem host_layer_apply (prec : Option ContractPrecision) (x : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (h0 : (⟨0, ![]⟩ : Shape).BroadcastsInDim ⟨2, ![M, N]⟩ ![])
    (r : Fin M) (s : Fin N) :
    maximumf (addf (Host.dotGeneral (DotDims.plain M K N) prec x w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 r s)
      = max ((∑ k : Fin K, x (ix2 r k) * w (ix2 k s)) + b (ix1 s)) 0 := by
  rw [maximumf_apply, addf_apply, StackMember.dotGeneral_plain_apply, broadcastInDim_oneRow_apply, broadcastInDim_toRow_apply,
    broadcastInDim_zero_apply]

end Cert.DenseRelu

end
-- ==== Proof.EdgeNet.lean ====
/-
  The first region, read as a value at the ideal instance: what the edge network's output array holds after the run.

  Each grid point t stages rows [2000·t, 2000·t + 2000) of the edge-vector array, the two weight matrices and the two
  one-row biases whole, and stores a 2000×1024 block: entry (p, q) of the block is
  max (Σ_k max (Σ_k' x[p,k']·w[k',k] + b[0,k], 0) · w'[k,q] + b'[0,q], 0), a rectified linear layer after a rectified
  linear layer. A row of that result depends on the same row of x only, so the 50 blocks are the restrictions of ONE
  function `net` of the whole arrays to the 50 row ranges, and the ranges tile the 100000 rows: the output array ends at `net`.
-/
import proofs.«152661_j67980742361871_1_alg».proof.Proof.Gen.KernelIdeal.Frame
import proofs.«152661_j67980742361871_1_alg».proof.Proof.LibDenseRelu
import Idealize.ShloMosaic.Lib.Pipeline.Value
import Idealize.ShloMosaic.Lib.ValueIdx

set_option maxRecDepth 16384

noncomputable section

namespace Cert.KernelIdeal.EdgeNet

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Both of the body's contractions are plain products: rows by the contracted axis times the contracted axis by columns. -/
theorem dotIn_eq : dot_S2000x1024_S1024x512_S2000x512_1_0_0_1_n_n = DotDims.plain 2000 1024 512 := rfl
theorem dotOut_eq : dot_S2000x512_S512x1024_S2000x1024_1_0_0_1_n_n = DotDims.plain 2000 512 1024 := rfl

/-- The hidden layer's entry (r, k): the rectified sum over the 1024 input features plus the bias. -/
def hidden (x : S100000x1024.Idx → EReal) (w : S1024x512.Idx → EReal) (b : S1x512.Idx → EReal) (r : Fin 100000) (k : Fin 512) : EReal :=
  max ((∑ k' : Fin 1024, x (ix2 r k') * w (ix2 k' k)) + b (ix2 (0 : Fin 1) k)) 0

/-- The edge network as ONE function of the whole arrays: entry (r, q) is the rectified sum over the 512 hidden units. -/
def net (x : S100000x1024.Idx → EReal) (w : S1024x512.Idx → EReal) (b : S1x512.Idx → EReal) (w' : S512x1024.Idx → EReal)
    (b' : S1x1024.Idx → EReal) : S100000x1024.Idx → EReal := fun i =>
  max ((∑ k : Fin 512, hidden x w b (i 0 : Fin 100000) k * w' (ix2 k (i 1 : Fin 1024))) + b' (ix2 (0 : Fin 1) (i 1 : Fin 1024))) 0

/-- The body's stored value at entry (p, q) of the block, from the five loaded blocks. -/
theorem pay_apply (x0 : Vec Ideal S2000x1024 .bf16) (x1 : Vec Ideal S1024x512 .bf16) (x2 : Vec Ideal S1x512 .f32)
    (x3 : Vec Ideal S512x1024 .bf16) (x4 : Vec Ideal S1x1024 .f32) (p : Fin 2000) (q : Fin 1024) :
    k0_pay1 x0 x1 x2 x3 x4 (ix2 p q)
      = max ((∑ k : Fin 512, max ((∑ k' : Fin 1024, x0 (ix2 p k') * x1 (ix2 k' k)) + x2 (ix2 (0 : Fin 1) k)) 0 * x3 (ix2 k q))
          + x4 (ix2 (0 : Fin 1) q)) 0 := by
  unfold k0_pay1
  simp only [shapeCast_self, dotIn_eq, dotOut_eq]
  rw [Cert.DenseRelu.kernel_layer_apply]
  refine congrArg (fun z => max (z + x4 (ix2 (0 : Fin 1) q)) 0) (Finset.sum_congr rfl fun k _ => ?_)
  refine congrArg (· * x3 (ix2 k q)) ?_
  exact Cert.DenseRelu.kernel_layer_apply (φ₁ := .bf16) (φ₂ := .bf16) none x0 x1 x2 broadcasts_S1x512_S2000x512 p k

/-- The same at a block index given whole: its two coordinates are the row inside the block and the column. -/
theorem pay_at (x0 : Vec Ideal S2000x1024 .bf16) (x1 : Vec Ideal S1024x512 .bf16) (x2 : Vec Ideal S1x512 .f32)
    (x3 : Vec Ideal S512x1024 .bf16) (x4 : Vec Ideal S1x1024 .f32) (j : S2000x1024.Idx) :
    k0_pay1 x0 x1 x2 x3 x4 j
      = max ((∑ k : Fin 512, max ((∑ k' : Fin 1024, x0 (ix2 (j 0 : Fin 2000) k') * x1 (ix2 k' k)) + x2 (ix2 (0 : Fin 1) k)) 0
            * x3 (ix2 k (j 1 : Fin 1024))) + x4 (ix2 (0 : Fin 1) (j 1 : Fin 1024))) 0 := by
  exact (congrArg (k0_pay1 x0 x1 x2 x3 x4) (eq_ix2 j)).trans (pay_apply x0 x1 x2 x3 x4 (j 0) (j 1))

/-! ## The blocks: where each window's block at a point lies in its array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 points: the edge-vector window moves with the output window along the rows and
    stays at column block 0; the weights and biases stay at block (0, 0); the output's row block is below 50. -/
theorem idx_facts : ∀ t : Fin cfg0.N,
      win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 49 ∧ win0_5.index t (1 : Fin 2) = 0 :=
  (by decide +kernel : ∀ t : Fin grid0.N, _)

/-- Every one of the 50 row blocks is some point's. -/
theorem idx_onto : ∀ q0 : Fin 50, ∃ t : Fin cfg0.N, win0_5.index t = ![q0.val, 0] :=
  (by decide +kernel : ∀ q0 : Fin 50, ∃ t : Fin grid0.N, win0_5.index t = ![q0.val, 0])

/-- The edge-vector block at point t, row p of the block: row (block·2000 + p) of the array, the same column. -/
theorem read_x (c : Dev nD) (t : Fin cfg0.N) (j : S2000x1024.Idx) (k' : Fin 1024) :
    iblk0 V c 0 t (ix2 (j 0 : Fin 2000) k')
      = V c main_v22 (ix2 ((((cfg0.win 5).blk t).view.emb j) 0 : Fin 100000) k') := by
  obtain ⟨e0, e1, -⟩ := idx_facts t
  show V c main_v22 (((cfg0.win 0).blk t).view.emb (ix2 (j 0 : Fin 2000) k')) = _
  refine congrArg (V c main_v22) (funext fun a => Fin.ext ?_)
  match a with
  | ⟨0, _⟩ => show win0_0.index t (0 : Fin 2) * 2000 + 1 * (j 0).val = win0_5.index t (0 : Fin 2) * 2000 + 1 * (j 0).val; omega
  | ⟨1, _⟩ => show win0_0.index t (1 : Fin 2) * 1024 + 1 * k'.val = k'.val; omega

/-- The first weight matrix is staged whole. -/
theorem read_w (c : Dev nD) (t : Fin cfg0.N) (k' : Fin 1024) (k : Fin 512) :
    iblk0 V c 1 t (ix2 k' k) = V c main_v24 (ix2 k' k) := by
  obtain ⟨-, -, e0, e1, -⟩ := idx_facts t
  show V c main_v24 (((cfg0.win 1).blk t).view.emb (ix2 k' k)) = _
  refine congrArg (V c main_v24) (funext fun a => Fin.ext ?_)
  match a with
  | ⟨0, _⟩ => show win0_1.index t (0 : Fin 2) * 1024 + 1 * k'.val = k'.val; omega
  | ⟨1, _⟩ => show win0_1.index t (1 : Fin 2) * 512 + 1 * k.val = k.val; omega

/-- The first bias row is staged whole. -/
theorem read_b (c : Dev nD) (t : Fin cfg0.N) (k : Fin 512) :
    iblk0 V c 2 t (ix2 (0 : Fin 1) k) = V c main_v25 (ix2 (0 : Fin 1) k) := by
  obtain ⟨-, -, -, -, e0, e1, -⟩ := idx_facts t
  show V c main_v25 (((cfg0.win 2).blk t).view.emb (ix2 (0 : Fin 1) k)) = _
  refine congrArg (V c main_v25) (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

/-- The second weight matrix is staged whole; the output block spans every column, so its column is the array's. -/
theorem read_w' (c : Dev nD) (t : Fin cfg0.N) (j : S2000x1024.Idx) (k : Fin 512) :
    iblk0 V c 3 t (ix2 k (j 1 : Fin 1024))
      = V c main_v27 (ix2 k ((((cfg0.win 5).blk t).view.emb j) 1 : Fin 1024)) := by
  obtain ⟨-, -, -, -, -, -, e0, e1, -, -, -, e5⟩ := idx_facts t
  show V c main_v27 (((cfg0.win 3).blk t).view.emb (ix2 k (j 1 : Fin 1024))) = _
  refine congrArg (V c main_v27) (funext fun a => Fin.ext ?_)
  match a with
  | ⟨0, _⟩ => show win0_3.index t (0 : Fin 2) * 512 + 1 * k.val = k.val; omega
  | ⟨1, _⟩ => show win0_3.index t (1 : Fin 2) * 1024 + 1 * (j 1).val = win0_5.index t (1 : Fin 2) * 1024 + 1 * (j 1).val; omega

/-- The second bias row is staged whole. -/
theorem read_b' (c : Dev nD) (t : Fin cfg0.N) (j : S2000x1024.Idx) :
    iblk0 V c 4 t (ix2 (0 : Fin 1) (j 1 : Fin 1024))
      = V c main_v28 (ix2 (0 : Fin 1) ((((cfg0.win 5).blk t).view.emb j) 1 : Fin 1024)) := by
  obtain ⟨-, -, -, -, -, -, -, -, e0, e1, -, e5⟩ := idx_facts t
  show V c main_v28 (((cfg0.win 4).blk t).view.emb (ix2 (0 : Fin 1) (j 1 : Fin 1024))) = _
  refine congrArg (V c main_v28) (funext fun a => Fin.ext ?_)
  match a with
  | ⟨0, _⟩ => show win0_4.index t (0 : Fin 2) * 1 + 1 * 0 = 0; omega
  | ⟨1, _⟩ => show win0_4.index t (1 : Fin 2) * 1024 + 1 * (j 1).val = win0_5.index t (1 : Fin 2) * 1024 + 1 * (j 1).val; omega

/-! ## From the blocks to the array -/

/-- WHAT POINT t WRITES BACK is block t of `net` of the arrays as the region finds them. -/
theorem flushed_eq (c : Dev nD) (t : Fin cfg0.N) :
    (dat0 V c).flushed 5 t
      = ((cfg0.win 5).blk t).view.read (Elt Ideal) (net (V c main_v22) (V c main_v24) (V c main_v25) (V c main_v27) (V c main_v28)) := by
  show (cfg0.win 5).cut (grid0.coords t) ((dat0 V c).after 5 t) = _
  rw [after0_5]
  unfold out0_5
  rw [View.canon_unit_zero hz]
  simp only [View.ld_unit_zero (S := S2000x1024) hz, View.ld_unit_zero (S := S1024x512) hz, View.ld_unit_zero (S := S1x512) hz,
    View.ld_unit_zero (S := S512x1024) hz, View.ld_unit_zero (S := S1x1024) hz]
  funext j
  show k0_pay1 (iblk0 V c 0 t) (iblk0 V c 1 t) (iblk0 V c 2 t) (iblk0 V c 3 t) (iblk0 V c 4 t) j
    = net (V c main_v22) (V c main_v24) (V c main_v25) (V c main_v27) (V c main_v28) (((cfg0.win 5).blk t).view.emb j)
  refine (pay_at (iblk0 V c 0 t) (iblk0 V c 1 t) (iblk0 V c 2 t) (iblk0 V c 3 t) (iblk0 V c 4 t) j).trans ?_
  unfold net hidden
  rw [read_b' V c t j]
  refine congrArg (fun z => max (z + _) 0) (Finset.sum_congr rfl fun k _ => ?_)
  rw [read_w' V c t j k, read_b V c t k]
  refine congrArg (fun z => max (z + _) 0 * _) (Finset.sum_congr rfl fun k' _ => ?_)
  rw [read_x V c t j k', read_w V c t k' k]

/-- An index of the array is in point t's block iff each coordinate is in the block's range on its axis. -/
theorem mem_blk (t : Fin cfg0.N) (i : S100000x1024.Idx) :
    i ∈ ((cfg0.win 5).blk t).view.set ↔ ∀ a : Fin 2, win0_5.index t a * S2000x1024.size a ≤ (i a).val ∧ (i a).val < win0_5.index t a * S2000x1024.size a + S2000x1024.size a := by
  show i ∈ ((View.whole main_v29).slice (win0_5.rect t)).set ↔ _
  rw [View.set_slice_whole, Rect.mem_set_unit]
  exact Iff.rfl

/-- The 50 row ranges tile the 100000 rows: row r is in the block of the point whose row block is r / 2000. -/
theorem cover (i : S100000x1024.Idx) : ∃ t : Fin cfg0.N, (cfg0.win 5).flush t = true ∧ i ∈ ((cfg0.win 5).blk t).view.set := by
  have hi0 : (i 0).val < 100000 := (i 0).isLt
  have hi1 : (i 1).val < 1024 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 1024 ≤ (i 1).val ∧ (i 1).val < win0_5.index t (1 : Fin 2) * 1024 + 1024; omega

/-- THE OUTPUT ARRAY after the region, for any contents `V` it is entered from: the edge network of the five input arrays. -/
theorem final (c : Dev nD) :
    (dat0 V c).arrAt 5 cfg0.N = net (V c main_v22) (V c main_v24) (V c main_v25) (V c main_v27) (V c main_v28) :=
  (dat0 V c).arrAt_eq_of_cover 5 _ (fun t _ => flushed_eq V c t) cover

end Cert.KernelIdeal.EdgeNet

end
-- ==== Proof.NodeNet.lean ====
/-
  The second region, read as a value at the ideal instance: what the node network's output array holds after the run.

  Each grid point t stages rows [2000·t, 2000·t + 2000) of the pooled node array, the two 512×512 weight matrices and
  the two one-row biases whole, and stores a 2000×512 block: entry (p, q) of the block is
  max (Σ_k max (Σ_k' x[p,k']·w[k',k] + b[0,k], 0) · w'[k,q] + b'[0,q], 0). A row of the result depends on the same row
  of x only, so the 25 blocks are the restrictions of ONE function `net` of the whole arrays to the 25 row ranges, and
  the ranges tile the 50000 rows: the output array ends at `net`.
-/
import proofs.«152661_j67980742361871_1_alg».proof.Proof.Gen.KernelIdeal.Frame
import proofs.«152661_j67980742361871_1_alg».proof.Proof.LibDenseRelu
import Idealize.ShloMosaic.Lib.Pipeline.Value
import Idealize.ShloMosaic.Lib.ValueIdx

set_option maxRecDepth 16384

noncomputable section

namespace Cert.KernelIdeal.NodeNet

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Both of the body's contractions use one record, and it is the plain product of a 2000×512 by a 512×512 matrix. -/
theorem dot_eq : dot_S2000x512_S512x512_S2000x512_1_0_0_1_n_n = DotDims.plain 2000 512 512 := rfl

/-- The hidden layer's entry (r, k): the rectified sum over the 512 pooled features plus the bias. -/
def hidden (x : S50000x512.Idx → EReal) (w : S512x512.Idx → EReal) (b : S1x512.Idx → EReal) (r : Fin 50000) (k : Fin 512) : EReal :=
  max ((∑ k' : Fin 512, x (ix2 r k') * w (ix2 k' k)) + b (ix2 (0 : Fin 1) k)) 0

/-- The node network as ONE function of the whole arrays: entry (r, q) is the rectified sum over the 512 hidden units. -/
def net (x : S50000x512.Idx → EReal) (w : S512x512.Idx → EReal) (b : S1x512.Idx → EReal) (w' : S512x512.Idx → EReal)
    (b' : S1x512.Idx → EReal) : S50000x512.Idx → EReal := fun i =>
  max ((∑ k : Fin 512, hidden x w b (i 0 : Fin 50000) k * w' (ix2 k (i 1 : Fin 512))) + b' (ix2 (0 : Fin 1) (i 1 : Fin 512))) 0

/-- The body's stored value at entry (p, q) of the block, from the five loaded blocks. -/
theorem pay_apply (x0 : Vec Ideal S2000x512 .bf16) (x1 : Vec Ideal S512x512 .bf16) (x2 : Vec Ideal S1x512 .f32)
    (x3 : Vec Ideal S512x512 .bf16) (x4 : Vec Ideal S1x512 .f32) (p : Fin 2000) (q : Fin 512) :
    k1_pay1 x0 x1 x2 x3 x4 (ix2 p q)
      = max ((∑ k : Fin 512, max ((∑ k' : Fin 512, x0 (ix2 p k') * x1 (ix2 k' k)) + x2 (ix2 (0 : Fin 1) k)) 0 * x3 (ix2 k q))
          + x4 (ix2 (0 : Fin 1) q)) 0 := by
  unfold k1_pay1
  simp only [shapeCast_self, dot_eq]
  rw [Cert.DenseRelu.kernel_layer_apply]
  refine congrArg (fun z => max (z + x4 (ix2 (0 : Fin 1) q)) 0) (Finset.sum_congr rfl fun k _ => ?_)
  refine congrArg (· * x3 (ix2 k q)) ?_
  exact Cert.DenseRelu.kernel_layer_apply (φ₁ := .bf16) (φ₂ := .bf16) none x0 x1 x2 broadcasts_S1x512_S2000x512 p k

/-- The same at a block index given whole: its two coordinates are the row inside the block and the column. -/
theorem pay_at (x0 : Vec Ideal S2000x512 .bf16) (x1 : Vec Ideal S512x512 .bf16) (x2 : Vec Ideal S1x512 .f32)
    (x3 : Vec Ideal S512x512 .bf16) (x4 : Vec Ideal S1x512 .f32) (j : S2000x512.Idx) :
    k1_pay1 x0 x1 x2 x3 x4 j
      = max ((∑ k : Fin 512, max ((∑ k' : Fin 512, x0 (ix2 (j 0 : Fin 2000) k') * x1 (ix2 k' k)) + x2 (ix2 (0 : Fin 1) k)) 0
            * x3 (ix2 k (j 1 : Fin 512))) + x4 (ix2 (0 : Fin 1) (j 1 : Fin 512))) 0 := by
  exact (congrArg (k1_pay1 x0 x1 x2 x3 x4) (eq_ix2 j)).trans (pay_apply x0 x1 x2 x3 x4 (j 0) (j 1))

/-! ## The blocks: where each window's block at a point lies in its array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the pooled-array window moves with the output window along the rows and
    stays at column block 0; the weights and biases stay at block (0, 0); the output's row block is below 25. -/
theorem idx_facts : ∀ t : Fin cfg1.N,
      win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 24 ∧ win1_5.index t (1 : Fin 2) = 0 :=
  (by decide +kernel : ∀ t : Fin grid1.N, _)

/-- Every one of the 25 row blocks is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- The pooled block at point t, row p of the block: row (block·2000 + p) of the array, the same column. -/
theorem read_x (c : Dev nD) (t : Fin cfg1.N) (j : S2000x512.Idx) (k' : Fin 512) :
    iblk1 V c 0 t (ix2 (j 0 : Fin 2000) k')
      = V c main_v67 (ix2 ((((cfg1.win 5).blk t).view.emb j) 0 : Fin 50000) k') := by
  obtain ⟨e0, e1, -⟩ := idx_facts t
  show V c main_v67 (((cfg1.win 0).blk t).view.emb (ix2 (j 0 : Fin 2000) k')) = _
  refine congrArg (V c main_v67) (funext fun a => Fin.ext ?_)
  match a with
  | ⟨0, _⟩ => show win1_0.index t (0 : Fin 2) * 2000 + 1 * (j 0).val = win1_5.index t (0 : Fin 2) * 2000 + 1 * (j 0).val; omega
  | ⟨1, _⟩ => show win1_0.index t (1 : Fin 2) * 512 + 1 * k'.val = k'.val; omega

/-- The first weight matrix is staged whole. -/
theorem read_w (c : Dev nD) (t : Fin cfg1.N) (k' : Fin 512) (k : Fin 512) :
    iblk1 V c 1 t (ix2 k' k) = V c main_v69 (ix2 k' k) := by
  obtain ⟨-, -, e0, e1, -⟩ := idx_facts t
  show V c main_v69 (((cfg1.win 1).blk t).view.emb (ix2 k' k)) = _
  refine congrArg (V c main_v69) (funext fun a => Fin.ext ?_)
  match a with
  | ⟨0, _⟩ => show win1_1.index t (0 : Fin 2) * 512 + 1 * k'.val = k'.val; omega
  | ⟨1, _⟩ => show win1_1.index t (1 : Fin 2) * 512 + 1 * k.val = k.val; omega

/-- The first bias row is staged whole. -/
theorem read_b (c : Dev nD) (t : Fin cfg1.N) (k : Fin 512) :
    iblk1 V c 2 t (ix2 (0 : Fin 1) k) = V c main_v70 (ix2 (0 : Fin 1) k) := by
  obtain ⟨-, -, -, -, e0, e1, -⟩ := idx_facts t
  show V c main_v70 (((cfg1.win 2).blk t).view.emb (ix2 (0 : Fin 1) k)) = _
  refine congrArg (V c main_v70) (funext fun a => Fin.ext ?_)
  match a with
  | ⟨0, _⟩ => show win1_2.index t (0 : Fin 2) * 1 + 1 * 0 = 0; omega
  | ⟨1, _⟩ => show win1_2.index t (1 : Fin 2) * 512 + 1 * k.val = k.val; omega

/-- The second weight matrix is staged whole; the output block spans every column, so its column is the array's. -/
theorem read_w' (c : Dev nD) (t : Fin cfg1.N) (j : S2000x512.Idx) (k : Fin 512) :
    iblk1 V c 3 t (ix2 k (j 1 : Fin 512))
      = V c main_v72 (ix2 k ((((cfg1.win 5).blk t).view.emb j) 1 : Fin 512)) := by
  obtain ⟨-, -, -, -, -, -, e0, e1, -, -, -, e5⟩ := idx_facts t
  show V c main_v72 (((cfg1.win 3).blk t).view.emb (ix2 k (j 1 : Fin 512))) = _
  refine congrArg (V c main_v72) (funext fun a => Fin.ext ?_)
  match a with
  | ⟨0, _⟩ => show win1_3.index t (0 : Fin 2) * 512 + 1 * k.val = k.val; omega
  | ⟨1, _⟩ => show win1_3.index t (1 : Fin 2) * 512 + 1 * (j 1).val = win1_5.index t (1 : Fin 2) * 512 + 1 * (j 1).val; omega

/-- The second bias row is staged whole. -/
theorem read_b' (c : Dev nD) (t : Fin cfg1.N) (j : S2000x512.Idx) :
    iblk1 V c 4 t (ix2 (0 : Fin 1) (j 1 : Fin 512))
      = V c main_v73 (ix2 (0 : Fin 1) ((((cfg1.win 5).blk t).view.emb j) 1 : Fin 512)) := by
  obtain ⟨-, -, -, -, -, -, -, -, e0, e1, -, e5⟩ := idx_facts t
  show V c main_v73 (((cfg1.win 4).blk t).view.emb (ix2 (0 : Fin 1) (j 1 : Fin 512))) = _
  refine congrArg (V c main_v73) (funext fun a => Fin.ext ?_)
  match a with
  | ⟨0, _⟩ => show win1_4.index t (0 : Fin 2) * 1 + 1 * 0 = 0; omega
  | ⟨1, _⟩ => show win1_4.index t (1 : Fin 2) * 512 + 1 * (j 1).val = win1_5.index t (1 : Fin 2) * 512 + 1 * (j 1).val; omega

/-! ## From the blocks to the array -/

/-- WHAT POINT t WRITES BACK is block t of `net` of the arrays as the region finds them. -/
theorem flushed_eq (c : Dev nD) (t : Fin cfg1.N) :
    (dat1 V c).flushed 5 t
      = ((cfg1.win 5).blk t).view.read (Elt Ideal) (net (V c main_v67) (V c main_v69) (V c main_v70) (V c main_v72) (V c main_v73)) := by
  show (cfg1.win 5).cut (grid1.coords t) ((dat1 V c).after 5 t) = _
  rw [after1_5]
  unfold out1_5
  rw [View.canon_unit_zero hz]
  simp only [View.ld_unit_zero (S := S2000x512) hz, View.ld_unit_zero (S := S512x512) hz, View.ld_unit_zero (S := S1x512) hz]
  funext j
  show k1_pay1 (iblk1 V c 0 t) (iblk1 V c 1 t) (iblk1 V c 2 t) (iblk1 V c 3 t) (iblk1 V c 4 t) j
    = net (V c main_v67) (V c main_v69) (V c main_v70) (V c main_v72) (V c main_v73) (((cfg1.win 5).blk t).view.emb j)
  refine (pay_at (iblk1 V c 0 t) (iblk1 V c 1 t) (iblk1 V c 2 t) (iblk1 V c 3 t) (iblk1 V c 4 t) j).trans ?_
  unfold net hidden
  rw [read_b' V c t j]
  refine congrArg (fun z => max (z + _) 0) (Finset.sum_congr rfl fun k _ => ?_)
  rw [read_w' V c t j k, read_b V c t k]
  refine congrArg (fun z => max (z + _) 0 * _) (Finset.sum_congr rfl fun k' _ => ?_)
  rw [read_x V c t j k', read_w V c t k' k]

/-- An index of the array is in point t's block iff each coordinate is in the block's range on its axis. -/
theorem mem_blk (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v74).slice (win1_5.rect t)).set ↔ _
  rw [View.set_slice_whole, Rect.mem_set_unit]
  exact Iff.rfl

/-- The 25 row ranges tile the 50000 rows: row r is in the block of the point whose row block is r / 2000. -/
theorem cover (i : S50000x512.Idx) : ∃ t : Fin cfg1.N, (cfg1.win 5).flush t = true ∧ i ∈ ((cfg1.win 5).blk t).view.set := by
  have hi0 : (i 0).val < 50000 := (i 0).isLt
  have hi1 : (i 1).val < 512 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 512 ≤ (i 1).val ∧ (i 1).val < win1_5.index t (1 : Fin 2) * 512 + 512; omega

/-- THE OUTPUT ARRAY after the region, for any contents `V` it is entered from: the node network of the five input arrays. -/
theorem final (c : Dev nD) :
    (dat1 V c).arrAt 5 cfg1.N = net (V c main_v67) (V c main_v69) (V c main_v70) (V c main_v72) (V c main_v73) :=
  (dat1 V c).arrAt_eq_of_cover 5 _ (fun t _ => flushed_eq V c t) cover

end Cert.KernelIdeal.NodeNet

end
-- ==== Proof.RefNets.lean ====
/-
  The reference program's two perceptrons read at an entry, and its pooling stage named as one function.

  The reference computes  out = node (pool (edge (t))) :
    edge  — relu (relu (t · W1aᵀ + b1a) · W1bᵀ + b1b) over the 100000 edge vectors t (stage `val_main_v33`),
    pool  — the two halves of the edge result scatter-added into the 50000 nodes and divided by the clamped counts
            (stage `val_main_v70`, as a function of the edge result and the edge list),
    node  — relu (relu (p · W2aᵀ + b2a) · W2bᵀ + b2b) over the pooled rows p (stage `val_main_v82`).
  Each perceptron's entry (r, q) is written with the weights indexed as the ARGUMENTS hold them (the program transposes
  them first: (Wᵀ)[k', k] = W[k, k']), so that it can be compared entry by entry with what an accelerator kernel stores.
-/
import proofs.«152661_j67980742361871_1_alg».proof.Proof.Gen.ReferenceIdeal.Read
import proofs.«152661_j67980742361871_1_alg».proof.Proof.LibDenseRelu
import Idealize.ShloMosaic.Lib.Pipeline.Value
import Idealize.ShloMosaic.Lib.ValueIdx

noncomputable section

namespace Cert.ReferenceIdeal.Nets

open Cert.ReferenceIdeal Cert.ReferenceIdeal.Gen Cert.ReferenceIdeal.Read
open Idealize.ShloMosaic Idealize.ShloMosaic.TcCoe Idealize.ShloMosaic.ValueIdx

variable {F : FTy → Type} [FloatOps F]

/-! The four transposed weights read at an entry: (Wᵀ)[k', k] = W[k, k']. -/

/-- The first edge weight transposed, at (k', k), is the argument at (k, k'). -/
theorem edgeW1T_apply (x4 : (⟨S512x1024, .f32⟩ : BufTy).Contents (Elt F)) (k' : Fin 1024) (k : Fin 512) :
    val_main_v22 (F := F) x4 (ix2 k' k) = x4 (ix2 k k') := by
  rw [val_main_v22_apply]
  refine congrArg x4 (funext fun a => ?_)
  match a with
  | ⟨0, _⟩ => rfl
  | ⟨1, _⟩ => rfl

/-- The second edge weight transposed, at (k, q), is the argument at (q, k). -/
theorem edgeW2T_apply (x6 : (⟨S1024x512, .f32⟩ : BufTy).Contents (Elt F)) (k : Fin 512) (q : Fin 1024) :
    val_main_v28 (F := F) x6 (ix2 k q) = x6 (ix2 q k) := by
  rw [val_main_v28_apply]
  refine congrArg x6 (funext fun a => ?_)
  match a with
  | ⟨0, _⟩ => rfl
  | ⟨1, _⟩ => rfl

/-- The first node weight transposed, at (k', k), is the argument at (k, k'). -/
theorem nodeW1T_apply (x8 : (⟨S512x512, .f32⟩ : BufTy).Contents (Elt F)) (k' k : Fin 512) :
    val_main_v71 (F := F) x8 (ix2 k' k) = x8 (ix2 k k') := by
  rw [val_main_v71_apply]
  refine congrArg x8 (funext fun a => ?_)
  match a with
  | ⟨0, _⟩ => rfl
  | ⟨1, _⟩ => rfl

/-- The second node weight transposed, at (k, q), is the argument at (q, k). -/
theorem nodeW2T_apply (x10 : (⟨S512x512, .f32⟩ : BufTy).Contents (Elt F)) (k q : Fin 512) :
    val_main_v77 (F := F) x10 (ix2 k q) = x10 (ix2 q k) := by
  rw [val_main_v77_apply]
  refine congrArg x10 (funext fun a => ?_)
  match a with
  | ⟨0, _⟩ => rfl
  | ⟨1, _⟩ => rfl

/-- THE EDGE PERCEPTRON at (r, q): the stage `val_main_v33` from the edge vectors `val_main_v21` and the four weight arguments. -/
theorem edge_apply (x0 : (⟨S50000x510, .f32⟩ : BufTy).Contents (Elt Ideal)) (x1 : (⟨S100000x1, .f32⟩ : BufTy).Contents (Elt Ideal)) (x2 : (⟨S100000x2, .i32⟩ : BufTy).Contents (Elt Ideal)) (x3 : (⟨S50000x2, .f32⟩ : BufTy).Contents (Elt Ideal))
    (x4 : (⟨S512x1024, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal))
    (r : Fin 100000) (q : Fin 1024) :
    val_main_v33 (F := Ideal) x0 x1 x2 x3 x4 x5 x6 x7 (ix2 r q)
      = max ((∑ k : Fin 512, max ((∑ k' : Fin 1024, val_main_v21 (F := Ideal) x0 x1 x2 x3 (ix2 r k') * x4 (ix2 k k')) + x5 (ix1 k)) 0
            * x6 (ix2 q k)) + x7 (ix1 q)) 0 := by
  unfold val_main_v33 val_main_v32 val_main_v31 val_main_v30 val_main_v29 val_main_v27 val_main_v26 val_main_v25 val_main_v24 val_main_v23
    val_main_call0_v0 val_main_call0_cst val_main_call1_v0 val_main_call1_cst
  -- the edge vectors enter only as an array: any array T in their place
  generalize val_main_v21 (F := Ideal) x0 x1 x2 x3 = T
  rw [show dot_S100000x512_S512x1024_S100000x1024_1_0_0_1_n_n = DotDims.plain 100000 512 1024 from rfl,
    show dot_S100000x1024_S1024x512_S100000x512_1_0_0_1_n_n = DotDims.plain 100000 1024 512 from rfl]
  -- the outer layer at (r, q)
  rw [Cert.DenseRelu.host_layer_apply]
  refine congrArg (fun z => max (z + x7 (ix1 q)) 0) (Finset.sum_congr rfl fun k _ => ?_)
  -- the inner layer at (r, k), and the outer weight at (k, q)
  rw [Cert.DenseRelu.host_layer_apply, edgeW2T_apply]
  refine congrArg (fun z => max (z + x5 (ix1 k)) 0 * x6 (ix2 q k)) (Finset.sum_congr rfl fun k' _ => ?_)
  -- the inner weight at (k', k)
  rw [edgeW1T_apply]

/-- THE POOLING STAGE as one function of the edge result `nt` and the edge list: both halves of `nt` scatter-added into the
    nodes at the (normalised) endpoints, divided by the clamped endpoint counts. Never opened: both programs apply it. -/
def pool (nt : (⟨S100000x1024, .f32⟩ : BufTy).Contents (Elt F)) (x2 : (⟨S100000x2, .i32⟩ : BufTy).Contents (Elt F)) : (⟨S50000x512, .f32⟩ : BufTy).Contents (Elt F) :=
  Host.divf
    (Host.scatterAdd scatter_S50000x512_S100000x1_S100000x512_1_0_0_1
      (Host.scatterAdd scatter_S50000x512_S100000x1_S100000x512_1_0_0_1 (val_main_v36 (F := F)) (val_main_v42 (F := F) x2)
        (extractStridedSlice S100000x512 ![0, 0] nt slices_S100000x1024_S100000x512_0_0))
      (val_main_v49 (F := F) x2)
      (extractStridedSlice S100000x512 ![0, 512] nt slices_S100000x1024_S100000x512_0_512))
    (val_main_v69 (F := F) x2)

/-- The pooled stage IS `pool` of the edge stage. -/
theorem pooled_eq (x0 : (⟨S50000x510, .f32⟩ : BufTy).Contents (Elt F)) (x1 : (⟨S100000x1, .f32⟩ : BufTy).Contents (Elt F)) (x2 : (⟨S100000x2, .i32⟩ : BufTy).Contents (Elt F)) (x3 : (⟨S50000x2, .f32⟩ : BufTy).Contents (Elt F))
    (x4 : (⟨S512x1024, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) :
    val_main_v70 (F := F) x0 x1 x2 x3 x4 x5 x6 x7 = pool (val_main_v33 (F := F) x0 x1 x2 x3 x4 x5 x6 x7) x2 := by
  -- the quotient of the second scatter-add by the counts; the second scatter-add starts from the first; each takes one
  -- half of the edge result: the same term on both sides once the stages are spelled out
  unfold val_main_v70 val_main_v50 val_main_v43 val_main_v34 val_main_v35 pool
  rfl

/-- THE NODE PERCEPTRON as a function of ANY pooled array `p` and the four weight arguments (the operations of the stages
    `val_main_v71` … `val_main_v82` with `p` in the pooled stage's place). -/
def node (p : (⟨S50000x512, .f32⟩ : BufTy).Contents (Elt F)) (x8 : (⟨S512x512, .f32⟩ : BufTy).Contents (Elt F)) (x9 : (⟨S512, .f32⟩ : BufTy).Contents (Elt F)) (x10 : (⟨S512x512, .f32⟩ : BufTy).Contents (Elt F)) (x11 : (⟨S512, .f32⟩ : BufTy).Contents (Elt F)) :
    (⟨S50000x512, .f32⟩ : BufTy).Contents (Elt F) :=
  maximumf
    (addf
      (Host.dotGeneral dot_S50000x512_S512x512_S50000x512_1_0_0_1_n_n none
        (maximumf
          (addf (Host.dotGeneral dot_S50000x512_S512x512_S50000x512_1_0_0_1_n_n none p (val_main_v71 (F := F) x8)) (val_main_v74 (F := F) x9))
          (val_main_call3_v0 (F := F)))
        (val_main_v77 (F := F) x10))
      (val_main_v80 (F := F) x11))
    (val_main_call4_v0 (F := F))

/-- The reference's result IS `node` of the pooled stage. -/
theorem out_eq (x0 : (⟨S50000x510, .f32⟩ : BufTy).Contents (Elt F)) (x1 : (⟨S100000x1, .f32⟩ : BufTy).Contents (Elt F)) (x2 : (⟨S100000x2, .i32⟩ : BufTy).Contents (Elt F)) (x3 : (⟨S50000x2, .f32⟩ : BufTy).Contents (Elt F))
    (x4 : (⟨S512x1024, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F))
    (x8 : (⟨S512x512, .f32⟩ : BufTy).Contents (Elt F)) (x9 : (⟨S512, .f32⟩ : BufTy).Contents (Elt F)) (x10 : (⟨S512x512, .f32⟩ : BufTy).Contents (Elt F)) (x11 : (⟨S512, .f32⟩ : BufTy).Contents (Elt F)) :
    val_main_v82 (F := F) x0 x1 x2 x3 x4 x5 x6 x7 x8 x9 x10 x11 = node (val_main_v70 (F := F) x0 x1 x2 x3 x4 x5 x6 x7) x8 x9 x10 x11 := by
  -- the six stages from the first product to the last rectifier, spelled out, are the body of `node` at the pooled stage
  unfold val_main_v82 val_main_v81 val_main_v78 val_main_v76 val_main_v75 val_main_v72 node
  rfl

/-- THE NODE PERCEPTRON at (r, q), over any pooled array. -/
theorem node_apply (p : (⟨S50000x512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal))
    (x11 : (⟨S512, .f32⟩ : BufTy).Contents (Elt Ideal)) (r : Fin 50000) (q : Fin 512) :
    node (F := Ideal) p x8 x9 x10 x11 (ix2 r q)
      = max ((∑ k : Fin 512, max ((∑ k' : Fin 512, p (ix2 r k') * x8 (ix2 k k')) + x9 (ix1 k)) 0 * x10 (ix2 q k)) + x11 (ix1 q)) 0 := by
  unfold node val_main_v80 val_main_v79 val_main_v74 val_main_v73 val_main_call3_v0 val_main_call3_cst val_main_call4_v0 val_main_call4_cst
  rw [show dot_S50000x512_S512x512_S50000x512_1_0_0_1_n_n = DotDims.plain 50000 512 512 from rfl]
  -- the outer layer at (r, q)
  rw [Cert.DenseRelu.host_layer_apply]
  refine congrArg (fun z => max (z + x11 (ix1 q)) 0) (Finset.sum_congr rfl fun k _ => ?_)
  -- the inner layer at (r, k), and the outer weight at (k, q)
  rw [Cert.DenseRelu.host_layer_apply, nodeW2T_apply]
  refine congrArg (fun z => max (z + x9 (ix1 k)) 0 * x10 (ix2 q k)) (Finset.sum_congr rfl fun k' _ => ?_)
  -- the inner weight at (k', k)
  rw [nodeW1T_apply]

end Cert.ReferenceIdeal.Nets

end
-- ==== Proof.KernelHost.lean ====
/-
  What the accelerator program's host operations leave in the buffers the two regions read, at the ideal values.

  Before the first region the host builds the edge vectors (endpoint rows gathered, joined, scaled by the edge weights),
  transposes the two weight matrices and reshapes the two bias vectors to one row; a change of float format is the
  identity on extended reals, so each narrowed buffer holds the array it was narrowed from. Each buffer's contents is
  named here by the reference program's own stage function of the same arguments, which the two programs share.
-/
import proofs.«152661_j67980742361871_1_alg».proof.Proof.Gen.KernelIdeal.Frame
import proofs.«152661_j67980742361871_1_alg».proof.Proof.Gen.ReferenceIdeal.Read
import proofs.«152661_j67980742361871_1_alg».proof.Proof.EdgeNet
import proofs.«152661_j67980742361871_1_alg».proof.Proof.NodeNet
import proofs.«152661_j67980742361871_1_alg».proof.Proof.RefNets
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Before the first region -/

/-- The first weight matrix, transposed. -/
theorem w1_v24 (c : Dev nD) : (W1 m ρ c (Proc.devRef .tc main_v24) : S1024x512.Idx → EReal)
    = Cert.ReferenceIdeal.Read.val_main_v22 (F := Ideal) (m ((c : Thread nD τ).loc main_arg4)) := by
  show StableHlo.after hostOps0 (W0 m ρ c) (Proc.devRef .tc main_v24) = _
  after_results
  rfl

/-- The first bias vector as one row. -/
theorem w1_v25 (c : Dev nD) : (W1 m ρ c (Proc.devRef .tc main_v25) : S1x512.Idx → EReal)
    = shapeCast S1x512 (m ((c : Thread nD τ).loc main_arg5)) shapeCasts_S512_S1x512 := by
  show StableHlo.after hostOps0 (W0 m ρ c) (Proc.devRef .tc main_v25) = _
  after_results
  rfl

/-- The second weight matrix, transposed. -/
theorem w1_v27 (c : Dev nD) : (W1 m ρ c (Proc.devRef .tc main_v27) : S512x1024.Idx → EReal)
    = Cert.ReferenceIdeal.Read.val_main_v28 (F := Ideal) (m ((c : Thread nD τ).loc main_arg6)) := by
  show StableHlo.after hostOps0 (W0 m ρ c) (Proc.devRef .tc main_v27) = _
  after_results
  rfl

/-- The second bias vector as one row. -/
theorem w1_v28 (c : Dev nD) : (W1 m ρ c (Proc.devRef .tc main_v28) : S1x1024.Idx → EReal)
    = shapeCast S1x1024 (m ((c : Thread nD τ).loc main_arg7)) shapeCasts_S1024_S1x1024 := by
  show StableHlo.after hostOps0 (W0 m ρ c) (Proc.devRef .tc main_v28) = _
  after_results
  rfl

/-- The edge list's first column (the source endpoints), as the reference reads it. -/
theorem w1_v2 (c : Dev nD) : (W1 m ρ c (Proc.devRef .tc main_v2) : S100000.Idx → BitVec 32)
    = Cert.ReferenceIdeal.Read.val_main_v2 (F := Ideal) (m ((c : Thread nD τ).loc main_arg2)) := by
  show StableHlo.after hostOps0 (W0 m ρ c) (Proc.devRef .tc main_v2) = _
  after_results
  rfl

/-- The edge list's second column (the target endpoints), as the reference reads it. -/
theorem w1_v4 (c : Dev nD) : (W1 m ρ c (Proc.devRef .tc main_v4) : S100000.Idx → BitVec 32)
    = Cert.ReferenceIdeal.Read.val_main_v4 (F := Ideal) (m ((c : Thread nD τ).loc main_arg2)) := by
  show StableHlo.after hostOps0 (W0 m ρ c) (Proc.devRef .tc main_v4) = _
  after_results
  rfl

/-! ## Across the first region -/

/-- The first region's output array after the region: the edge network of the five arrays it was entered with. -/
theorem w2_v29 (c : Dev nD) : (W2 m ρ c (Proc.devRef .tc main_v29) : S100000x1024.Idx → EReal)
    = Cert.KernelIdeal.EdgeNet.net (W1 m ρ c (Proc.devRef .tc main_v22)) (W1 m ρ c (Proc.devRef .tc main_v24))
        (W1 m ρ c (Proc.devRef .tc main_v25)) (W1 m ρ c (Proc.devRef .tc main_v27)) (W1 m ρ c (Proc.devRef .tc main_v28)) :=
  (W2_arr m ρ c 5).trans (Cert.KernelIdeal.EdgeNet.final (V1 m ρ) c)

/-- A buffer the first region does not write holds after it what it held before. -/
theorem w2_v2 (c : Dev nD) : W2 m ρ c (Proc.devRef .tc main_v2) = W1 m ρ c (Proc.devRef .tc main_v2) := W2_of_ne m ρ c main_v2 (by decide)
theorem w2_v4 (c : Dev nD) : W2 m ρ c (Proc.devRef .tc main_v4) = W1 m ρ c (Proc.devRef .tc main_v4) := W2_of_ne m ρ c main_v4 (by decide)

/-- An argument the first stretch and the first region do not write holds after them what was launched. -/
theorem w2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results)
theorem w2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results)
theorem w2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results)
theorem w2_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results)

/-! ## Between the regions -/

/-- The third weight matrix, transposed. -/
theorem w5_v69 (c : Dev nD) : (W5 m ρ c (Proc.devRef .tc main_v69) : S512x512.Idx → EReal)
    = Cert.ReferenceIdeal.Read.val_main_v71 (F := Ideal) (m ((c : Thread nD τ).loc main_arg8)) := by
  show StableHlo.after hostOps1_2 (StableHlo.after hostOps1_1 (StableHlo.after hostOps1 (W2 m ρ c))) (Proc.devRef .tc main_v69) = _
  after_results
  rw [w2_arg8]
  rfl

/-- The third bias vector as one row. -/
theorem w5_v70 (c : Dev nD) : (W5 m ρ c (Proc.devRef .tc main_v70) : S1x512.Idx → EReal)
    = shapeCast S1x512 (m ((c : Thread nD τ).loc main_arg9)) shapeCasts_S512_S1x512 := by
  show StableHlo.after hostOps1_2 (StableHlo.after hostOps1_1 (StableHlo.after hostOps1 (W2 m ρ c))) (Proc.devRef .tc main_v70) = _
  after_results
  rw [w2_arg9]
  rfl

/-- The fourth weight matrix, transposed. -/
theorem w5_v72 (c : Dev nD) : (W5 m ρ c (Proc.devRef .tc main_v72) : S512x512.Idx → EReal)
    = Cert.ReferenceIdeal.Read.val_main_v77 (F := Ideal) (m ((c : Thread nD τ).loc main_arg10)) := by
  show StableHlo.after hostOps1_2 (StableHlo.after hostOps1_1 (StableHlo.after hostOps1 (W2 m ρ c))) (Proc.devRef .tc main_v72) = _
  after_results
  rw [w2_arg10]
  rfl

/-- The fourth bias vector as one row. -/
theorem w5_v73 (c : Dev nD) : (W5 m ρ c (Proc.devRef .tc main_v73) : S1x512.Idx → EReal)
    = shapeCast S1x512 (m ((c : Thread nD τ).loc main_arg11)) shapeCasts_S512_S1x512 := by
  show StableHlo.after hostOps1_2 (StableHlo.after hostOps1_1 (StableHlo.after hostOps1 (W2 m ρ c))) (Proc.devRef .tc main_v73) = _
  after_results
  rw [w2_arg11]
  rfl

/-! ## Across the second region -/

/-- The second region's output array after the region: the node network of the five arrays it was entered with. -/
theorem w6_v74 (c : Dev nD) : (W6 m ρ c (Proc.devRef .tc main_v74) : S50000x512.Idx → EReal)
    = Cert.KernelIdeal.NodeNet.net (W5 m ρ c (Proc.devRef .tc main_v67)) (W5 m ρ c (Proc.devRef .tc main_v69))
        (W5 m ρ c (Proc.devRef .tc main_v70)) (W5 m ρ c (Proc.devRef .tc main_v72)) (W5 m ρ c (Proc.devRef .tc main_v73)) :=
  (W6_arr m ρ c 5).trans (Cert.KernelIdeal.NodeNet.final (V5 m ρ) c)

end Cert.KernelIdeal.HostVals

end
-- ==== Proof.KernelEdgeVecs.lean ====
/-
  The edge vectors the first region reads, at the ideal values: the node table with its noise columns joined on, its rows
  gathered at the two (normalised) endpoint columns of the edge list, the two gathered arrays joined side by side and
  scaled row by row by the edge weights. The accelerator program's host operations are, one for one, the reference's, so
  the buffer holds the reference's own stage of the same four arguments; the narrowing to a shorter float format that
  follows is the identity on extended reals.
-/
import proofs.«152661_j67980742361871_1_alg».proof.Proof.KernelHost
import Idealize.ShloMosaic.Lib.StableHlo.Run

set_option maxRecDepth 16384

noncomputable section

namespace Cert.KernelIdeal.EdgeVecs

open Cert.KernelIdeal Cert.KernelIdeal.Gen Cert.KernelIdeal.HostVals
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 8000000 in
theorem w1_v22 (c : Dev nD) : (W1 m ρ c (Proc.devRef .tc main_v22) : S100000x1024.Idx → EReal)
    = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v22) = _
  after_results_simp
  rfl

end Cert.KernelIdeal.EdgeVecs

end
-- ==== Proof.KernelPooled.lean ====
/-
  The pooled node array the second region reads, at the ideal values: the two column halves of the first region's output
  scatter-added into the 50000 nodes at the source and target endpoints, divided node by node by the number of edge
  endpoints at the node clamped below at 1. The accelerator program's host operations between its regions are, one for
  one, the reference's pooling operations, so the buffer holds the reference's pooling function of the first region's
  output and the edge list; the narrowing to a shorter float format that follows is the identity on extended reals.
-/
import proofs.«152661_j67980742361871_1_alg».proof.Proof.KernelHost
import Idealize.ShloMosaic.Lib.StableHlo.Run

set_option maxRecDepth 16384

noncomputable section

namespace Cert.KernelIdeal.Pooled

open Cert.KernelIdeal Cert.KernelIdeal.Gen Cert.KernelIdeal.HostVals
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 8000000 in
theorem w5_v67 (c : Dev nD) : (W5 m ρ c (Proc.devRef .tc main_v67) : S50000x512.Idx → EReal)
    = Cert.ReferenceIdeal.Nets.pool (F := Ideal) (W2 m ρ c (Proc.devRef .tc main_v29)) (m ((c : Thread nD τ).loc main_arg2)) := by
  show StableHlo.after hostOps1_2 (StableHlo.after hostOps1_1 (StableHlo.after hostOps1 (W2 m ρ c))) (Proc.devRef .tc main_v67) = _
  after_results_simp
  rw [w2_v2, w2_v4, w1_v2, w1_v4]
  rfl

end Cert.KernelIdeal.Pooled

end
-- ==== Proof.KernelResult.lean ====
/-
  The accelerator program's result buffer at the end of its run, at the ideal values, as one function of the twelve
  arguments: the node network of the pooled edge network of the edge vectors. Each region's output is its whole-array
  function of the buffers it was entered with; each of those buffers is a host stage of the arguments that the reference
  program computes too, named by the reference's own stage function.
-/
import proofs.«152661_j67980742361871_1_alg».proof.Proof.KernelHost
import proofs.«152661_j67980742361871_1_alg».proof.Proof.KernelEdgeVecs
import proofs.«152661_j67980742361871_1_alg».proof.Proof.KernelPooled

set_option maxRecDepth 16384

noncomputable section

namespace Cert.KernelIdeal.Result

open Cert.KernelIdeal Cert.KernelIdeal.Gen Cert.KernelIdeal.HostVals
open Idealize.ShloMosaic Idealize.ShloMosaic.TcCoe Idealize.ShloMosaic.ValueIdx Idealize.SL.Sem

variable (m : (ℓ : Loc nD τ sig) → Buf (Elt Ideal) ℓ) (ρ : Dev nD → PrngReg)

/-- THE RESULT BUFFER after the last region: node network ∘ pooling ∘ edge network, every operand the reference's own stage
    of the same arguments (the weights transposed, the biases as one row). -/
theorem result (c : Dev nD) : (W6 m ρ c (Proc.devRef .tc main_v74) : S50000x512.Idx → EReal)
    = Cert.KernelIdeal.NodeNet.net
        (Cert.ReferenceIdeal.Nets.pool (F := Ideal)
          (Cert.KernelIdeal.EdgeNet.net (Cert.ReferenceIdeal.Read.val_main_v21 (F := Ideal) (m ((c : Thread nD τ).loc main_arg0)) (m ((c : Thread nD τ).loc main_arg1)) (m ((c : Thread nD τ).loc main_arg2)) (m ((c : Thread nD τ).loc main_arg3)))
            (Cert.ReferenceIdeal.Read.val_main_v22 (F := Ideal) (m ((c : Thread nD τ).loc main_arg4))) (shapeCast S1x512 (m ((c : Thread nD τ).loc main_arg5)) shapeCasts_S512_S1x512)
            (Cert.ReferenceIdeal.Read.val_main_v28 (F := Ideal) (m ((c : Thread nD τ).loc main_arg6))) (shapeCast S1x1024 (m ((c : Thread nD τ).loc main_arg7)) shapeCasts_S1024_S1x1024))
          (m ((c : Thread nD τ).loc main_arg2)))
        (Cert.ReferenceIdeal.Read.val_main_v71 (F := Ideal) (m ((c : Thread nD τ).loc main_arg8))) (shapeCast S1x512 (m ((c : Thread nD τ).loc main_arg9)) shapeCasts_S512_S1x512)
        (Cert.ReferenceIdeal.Read.val_main_v77 (F := Ideal) (m ((c : Thread nD τ).loc main_arg10))) (shapeCast S1x512 (m ((c : Thread nD τ).loc main_arg11)) shapeCasts_S512_S1x512) := by
  rw [w6_v74, Cert.KernelIdeal.Pooled.w5_v67, w5_v69, w5_v70, w5_v72, w5_v73, w2_v29, Cert.KernelIdeal.EdgeVecs.w1_v22, w1_v24, w1_v25, w1_v27, w1_v28]

end Cert.KernelIdeal.Result

end
-- ==== Proof.Bridge.lean ====
/-
  The two accelerator regions against the reference's two perceptrons, at the ideal values.

  A region's output array is `net x w b w' b'`: entry (r, q) = max (Σ_k max (Σ_k' x[r,k']·w[k',k] + b[0,k], 0)·w'[k,q] + b'[0,q], 0),
  with w, w' the TRANSPOSED weight arguments and b, b' the bias vectors reshaped to one row. The reference's perceptron at
  (r, q) is the same expression with the weights indexed as the arguments hold them, W[k,k'] and W'[q,k], and the biases as
  vectors. A transpose read at (k', k) is the argument at (k, k'); a vector reshaped to one row read at (0, k) is the vector
  at k; so the two are one function, entry by entry. A change of float format is the identity on extended reals, so the
  accelerator's narrowed operands are the operands.
-/
import proofs.«152661_j67980742361871_1_alg».proof.Proof.EdgeNet
import proofs.«152661_j67980742361871_1_alg».proof.Proof.NodeNet
import proofs.«152661_j67980742361871_1_alg».proof.Proof.RefNets
import Idealize.ShloMosaic.Lib.Pipeline.Value
import Idealize.ShloMosaic.Lib.ValueIdx

noncomputable section

namespace Cert.Bridge

open Idealize.ShloMosaic Idealize.ShloMosaic.TcCoe Idealize.ShloMosaic.ValueIdx
open Cert.ReferenceIdeal.Read Cert.ReferenceIdeal.Nets

/-- A vector of n entries reshaped to a one-row matrix, read at (0, k), is the vector's entry k. -/
theorem shapeCast_row_apply {α : Type} {n : Nat} (b : (⟨1, ![n]⟩ : Shape).Idx → α) (h : (⟨1, ![n]⟩ : Shape).ShapeCasts ⟨2, ![1, n]⟩) (k : Fin n) :
    shapeCast ⟨2, ![1, n]⟩ b h (ix2 (0 : Fin 1) k) = b (ix1 k) := by
  -- (0, k) in the one-row matrix and k in the vector have the same row-major position, 0 · n + k = k
  refine shapeCast_apply b h (ix2 (0 : Fin 1) k) (ix1 k) ?_
  rw [Shape.rowMajor_val_two, Shape.rowMajor_val_one]
  show k.val = 0 * n + k.val
  omega

/-- THE EDGE REGION'S FUNCTION of the reference's own operands IS the reference's edge stage. -/
theorem edge_eq (x0 : (⟨Cert.ReferenceIdeal.S50000x510, .f32⟩ : BufTy).Contents (Elt Ideal)) (x1 : (⟨Cert.ReferenceIdeal.S100000x1, .f32⟩ : BufTy).Contents (Elt Ideal)) (x2 : (⟨Cert.ReferenceIdeal.S100000x2, .i32⟩ : BufTy).Contents (Elt Ideal)) (x3 : (⟨Cert.ReferenceIdeal.S50000x2, .f32⟩ : BufTy).Contents (Elt Ideal))
    (x4 : (⟨Cert.ReferenceIdeal.S512x1024, .f32⟩ : BufTy).Contents (Elt Ideal)) (x5 : (⟨Cert.ReferenceIdeal.S512, .f32⟩ : BufTy).Contents (Elt Ideal)) (x6 : (⟨Cert.ReferenceIdeal.S1024x512, .f32⟩ : BufTy).Contents (Elt Ideal)) (x7 : (⟨Cert.ReferenceIdeal.S1024, .f32⟩ : BufTy).Contents (Elt Ideal))
    (h5 : (⟨1, ![512]⟩ : Shape).ShapeCasts ⟨2, ![1, 512]⟩) (h7 : (⟨1, ![1024]⟩ : Shape).ShapeCasts ⟨2, ![1, 1024]⟩) :
    Cert.KernelIdeal.EdgeNet.net (val_main_v21 (F := Ideal) x0 x1 x2 x3) (val_main_v22 (F := Ideal) x4) (shapeCast ⟨2, ![1, 512]⟩ x5 h5)
        (val_main_v28 (F := Ideal) x6) (shapeCast ⟨2, ![1, 1024]⟩ x7 h7)
      = val_main_v33 (F := Ideal) x0 x1 x2 x3 x4 x5 x6 x7 := by
  funext i
  obtain ⟨r, q, rfl⟩ : ∃ (r : Fin 100000) (q : Fin 1024), i = ix2 r q := ⟨i 0, i 1, eq_ix2 i⟩
  rw [edge_apply]
  -- the edge vectors enter both sides only as an array: any array T in their place
  generalize val_main_v21 (F := Ideal) x0 x1 x2 x3 = T
  unfold Cert.KernelIdeal.EdgeNet.net Cert.KernelIdeal.EdgeNet.hidden
  -- the outer bias: the reshaped vector at (0, q)
  rw [shapeCast_row_apply]
  refine congrArg (fun z => max (z + x7 (ix1 q)) 0) (Finset.sum_congr rfl fun k _ => ?_)
  -- the outer weight at (k, q), the inner bias at (0, k)
  rw [edgeW2T_apply, shapeCast_row_apply]
  refine congrArg (fun z => max (z + x5 (ix1 k)) 0 * x6 (ix2 q k)) (Finset.sum_congr rfl fun k' _ => ?_)
  -- the inner weight at (k', k)
  rw [edgeW1T_apply]

/-- THE NODE REGION'S FUNCTION of any pooled array and the reference's own operands IS the reference's node perceptron. -/
theorem node_eq (p : (⟨Cert.ReferenceIdeal.S50000x512, .f32⟩ : BufTy).Contents (Elt Ideal)) (x8 : (⟨Cert.ReferenceIdeal.S512x512, .f32⟩ : BufTy).Contents (Elt Ideal)) (x9 : (⟨Cert.ReferenceIdeal.S512, .f32⟩ : BufTy).Contents (Elt Ideal)) (x10 : (⟨Cert.ReferenceIdeal.S512x512, .f32⟩ : BufTy).Contents (Elt Ideal)) (x11 : (⟨Cert.ReferenceIdeal.S512, .f32⟩ : BufTy).Contents (Elt Ideal))
    (h9 : (⟨1, ![512]⟩ : Shape).ShapeCasts ⟨2, ![1, 512]⟩) (h11 : (⟨1, ![512]⟩ : Shape).ShapeCasts ⟨2, ![1, 512]⟩) :
    Cert.KernelIdeal.NodeNet.net p (val_main_v71 (F := Ideal) x8) (shapeCast ⟨2, ![1, 512]⟩ x9 h9) (val_main_v77 (F := Ideal) x10) (shapeCast ⟨2, ![1, 512]⟩ x11 h11)
      = node (F := Ideal) p x8 x9 x10 x11 := by
  funext i
  obtain ⟨r, q, rfl⟩ : ∃ (r : Fin 50000) (q : Fin 512), i = ix2 r q := ⟨i 0, i 1, eq_ix2 i⟩
  rw [node_apply]
  unfold Cert.KernelIdeal.NodeNet.net Cert.KernelIdeal.NodeNet.hidden
  -- the outer bias: the reshaped vector at (0, q)
  rw [shapeCast_row_apply]
  refine congrArg (fun z => max (z + x11 (ix1 q)) 0) (Finset.sum_congr rfl fun k _ => ?_)
  -- the outer weight at (k, q), the inner bias at (0, k)
  rw [nodeW2T_apply, shapeCast_row_apply]
  refine congrArg (fun z => max (z + x9 (ix1 k)) 0 * x10 (ix2 q k)) (Finset.sum_congr rfl fun k' _ => ?_)
  -- the inner weight at (k', k)
  rw [nodeW1T_apply]

end Cert.Bridge

end
-- ==== Proof.lean ====
/-
  The certificate of the graph triple convolution: the accelerator program (two fused perceptron regions among host
  operations) against its jnp reference, equal over the extended reals.

  Both programs compute  out = node (pool (edge (t))):  t the edge vectors (endpoint rows of the node table with its
  noise columns, gathered, joined and scaled by the edge weights), edge and node two-layer rectified perceptrons, pool
  the scatter-add of the edge result's two halves into the nodes divided by the clamped endpoint counts. The host parts
  (t and pool) are the same operations in both programs and are never opened. The accelerator computes each perceptron
  2000 rows at a time; a perceptron's row depends on the same row of its input only, so the blocks are the restrictions
  of one whole-array function, which entry by entry is the reference's: a product accumulated into zero is the sum the
  host's contraction is, a transposed weight read at (k', k) is the weight at (k, k'), a bias reshaped to one row and
  laid along the rows is the bias broadcast, a change of float format is the identity. No law beyond 0 + a = a is used,
  so the precondition (finite inputs) is never opened. The three frames are the generated frames and the reference's run.
-/
import proofs.«152661_j67980742361871_1_alg».proof.Defs
import proofs.«152661_j67980742361871_1_alg».proof.Proof.Gen.Kernel
import proofs.«152661_j67980742361871_1_alg».proof.Proof.Gen.Kernel.Skeleton
import proofs.«152661_j67980742361871_1_alg».proof.Proof.Gen.Kernel.Launch
import proofs.«152661_j67980742361871_1_alg».proof.Proof.Gen.Kernel.Points
import proofs.«152661_j67980742361871_1_alg».proof.Proof.Gen.Kernel.Frame
import proofs.«152661_j67980742361871_1_alg».proof.Proof.Gen.KernelIdeal
import proofs.«152661_j67980742361871_1_alg».proof.Proof.Gen.KernelIdeal.Skeleton
import proofs.«152661_j67980742361871_1_alg».proof.Proof.Gen.KernelIdeal.Launch
import proofs.«152661_j67980742361871_1_alg».proof.Proof.Gen.KernelIdeal.Points
import proofs.«152661_j67980742361871_1_alg».proof.Proof.Gen.KernelIdeal.Frame
import proofs.«152661_j67980742361871_1_alg».proof.Proof.Gen.ReferenceIdeal
import proofs.«152661_j67980742361871_1_alg».proof.Proof.Gen.Pre_finite_inputs
import proofs.«152661_j67980742361871_1_alg».proof.Proof.Gen.ReferenceIdeal.Run
import proofs.«152661_j67980742361871_1_alg».proof.Proof.Gen.ReferenceIdeal.Read
import proofs.«152661_j67980742361871_1_alg».proof.Proof.KernelRun
import proofs.«152661_j67980742361871_1_alg».proof.Proof.KernelHost
import proofs.«152661_j67980742361871_1_alg».proof.Proof.KernelResult
import proofs.«152661_j67980742361871_1_alg».proof.Proof.RefNets
import proofs.«152661_j67980742361871_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no accelerator region: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the twelve arguments both programs end, and the result arrays are equal: the accelerator's
    is the node network of the pooled edge network of the edge vectors, which is the reference's last stage. -/
theorem algebraic : Cert.algebraic_KernelIdeal_ReferenceIdeal := by
  intro m ρ m' ρ' _ hagree
  refine ⟨fun c => Cert.KernelIdeal.Gen.W6 m ρ c (Proc.devRef .tc Cert.KernelIdeal.main_v74), Cert.KernelIdeal.RunV.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v82_eq, e0, e1, e2, e3, e4, e5, e6, e7, e8, e9, e10, e11]
  refine Eq.trans ?_ (Cert.KernelIdeal.Result.result m ρ c).symm
  rw [Cert.Bridge.edge_eq, Cert.Bridge.node_eq, ← Cert.ReferenceIdeal.Nets.pooled_eq, ← Cert.ReferenceIdeal.Nets.out_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
